-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S8x8 : Shape := ⟨2, ![8, 8]⟩
abbrev S_ : Shape := ⟨0, ![]⟩

class Facts : Prop where
  bcast_S_S8x8 : S_.BroadcastsInDim S8x8 (![] : Fin 0 → Fin S8x8.rank)
  reducesTo_S8x8_S_d0_1 : S8x8.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v15 : IVec S_ 1) : IVec S_ 1 :=
  let main_c_6 : IVec S_ 32 := constantI S_ 32 8#32
  let main_v16 : IVec S4x4096 32 := broadcastInDim S4x4096 ![] bcast_S_S4x4096 main_c_6
  let main_v17 : IVec S4x4096 1 := cmpi .slt main_arg1 main_v16
  let main_c_7 : IVec S_ 1 := constantI S_ 1 1#1
  let main_v18 : IVec S_ 1 := (fun x v => Host.reduce IntOp.andi x v reducesTo_S4x4096_S_d0_1 h_S_) main_v17 main_c_7
  let main_v19 : IVec S_ 1 := andi main_v15 main_v18
  main_v19

def fn {F : FTy → Type} [FloatOps F] (main_arg0 : IVec S4x4096 32) (main_arg1 : IVec S4x4096 32) (main_arg2 : FVec F S8x8 .f32) : IVec S_ 1 :=
  let main_v0 : FVec F S8x8 .f32 := Host.absf main_arg2
  let main_cst : FVec F S_ .f32 := constant S_ .f32 0x7F800000#32
  let main_v1 : FVec F S8x8 .f32 := broadcastInDim S8x8 ![] bcast_S_S8x8 main_cst
  let main_v2 : IVec S8x8 1 := cmpf .olt main_v0 main_v1
  let main_c : IVec S_ 1 := constantI S_ 1 1#1
  let main_v3 : IVec S_ 1 := (fun x v => Host.reduce IntOp.andi x v reducesTo_S8x8_S_d0_1 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 1 := constantI S_ 1 1#1
  let main_v6 : IVec S_ 1 := (fun x v => Host.reduce IntOp.andi x v reducesTo_S4x4096_S_d0_1 h_S_) main_v5 main_c_1
  let main_v7 : IVec S_ 1 := andi main_v3 main_v6
  let main_c_2 : IVec S_ 32 := constantI S_ 32 8#32
  let main_v8 : IVec S4x4096 32 := broadcastInDim S4x4096 ![] bcast_S_S4x4096 main_c_2
  let main_v9 : IVec S4x4096 1 := cmpi .slt main_arg0 main_v8
  let main_c_3 : IVec S_ 1 := constantI S_ 1 1#1
  let main_v10 : IVec S_ 1 := (fun x v => Host.reduce IntOp.andi x v reducesTo_S4x4096_S_d0_1 h_S_) main_v9 main_c_3
  let main_v11 : IVec S_ 1 := andi main_v7 main_v10
  let main_c_4 : IVec S_ 32 := constantI S_ 32 0#32
  let main_v12 : IVec S4x4096 32 := broadcastInDim S4x4096 ![] bcast_S_S4x4096 main_c_4
  let main_v13 : IVec S4x4096 1 := cmpi .sge main_arg1 main_v12
  let main_c_5 : IVec S_ 1 := constantI S_ 1 1#1
  let main_v14 : IVec S_ 1 := (fun x v => Host.reduce IntOp.andi x v reducesTo_S4x4096_S_d0_1 h_S_) main_v13 main_c_5
  let main_v15 : IVec S_ 1 := andi main_v11 main_v14
  fn_part1 (F := F) main_arg1 main_v15
-- ==== Kernel.lean ====
abbrev S4x4096 : Shape := ⟨2, ![4, 4096]⟩
abbrev S8x8 : Shape := ⟨2, ![8, 8]⟩
abbrev S_ : Shape := ⟨0, ![]⟩
abbrev S128x128 : Shape := ⟨2, ![128, 128]⟩
abbrev S1 : Shape := ⟨1, ![1]⟩
abbrev S2 : Shape := ⟨1, ![2]⟩
abbrev S4x1x4096x4096 : Shape := ⟨4, ![4, 1, 4096, 4096]⟩
abbrev S4x512 : Shape := ⟨2, ![4, 512]⟩
abbrev S4x1024 : Shape := ⟨2, ![4, 1024]⟩
abbrev S4x1x512x1024 : Shape := ⟨4, ![4, 1, 512, 1024]⟩
abbrev S1x1x128 : Shape := ⟨3, ![1, 1, 128]⟩
abbrev S4x512x1 : Shape := ⟨3, ![4, 512, 1]⟩
abbrev S4x512x128 : Shape := ⟨3, ![4, 512, 128]⟩
abbrev S2048x128 : Shape := ⟨2, ![2048, 128]⟩
abbrev S4x1024x1 : Shape := ⟨3, ![4, 1024, 1]⟩
abbrev S4x1024x128 : Shape := ⟨3, ![4, 1024, 128]⟩
abbrev S4x512x512 : Shape := ⟨3, ![4, 512, 512]⟩
abbrev S4x1x512x512 : Shape := ⟨4, ![4, 1, 512, 512]⟩

abbrev nBuf : Space → Nat
  | .hbm => 32
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S4x4096, .i32⟩
  | .hbm, ⟨2, _⟩ => ⟨S8x8, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x4096, .i32⟩
  | .hbm, ⟨15, _⟩ => ⟨S4x4096, .i32⟩
  | .hbm, ⟨16, _⟩ => ⟨S_, .i32⟩
  | .hbm, ⟨17, _⟩ => ⟨S4x4096, .i32⟩
  | .hbm, ⟨18, _⟩ => ⟨S4x4096, .i32⟩
  | .hbm, ⟨19, _⟩ => ⟨S_, .f32⟩
  | .hbm, ⟨20, _⟩ => ⟨S8x8, .f32⟩
  | .hbm, ⟨21, _⟩ => ⟨S8x8, .i1⟩
  | .hbm, ⟨22, _⟩ => ⟨S8x8, .bf16⟩
  | .hbm, ⟨23, _⟩ => ⟨S_, .bf16⟩
  | .hbm, ⟨24, _⟩ => ⟨S128x128, .bf16⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x128, .bf16⟩
  | .hbm, ⟨31, _⟩ => ⟨S4x1x4096x4096, .f32⟩
  | .local _ .vmem, ⟨0, _⟩ => ⟨S4x512, .i32⟩
  | .local _ .vmem, ⟨1, _⟩ => ⟨S4x512, .i32⟩
  | .local _ .vmem, ⟨2, _⟩ => ⟨S128x128, .bf16⟩
  | .local _ .vmem, ⟨3, _⟩ => ⟨S4x1024, .i32⟩
  | .local _ .vmem, ⟨4, _⟩ => ⟨S4x1024, .i32⟩
  | .local _ .vmem, ⟨5, _⟩ => ⟨S4x1x512x1024, .f32⟩
  | .local _ .vmem, ⟨6, _⟩ => ⟨S4x1x512x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_c_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_3 : Ref sig .tc := ⟨.hbm, 23, rfl⟩
abbrev main_v5 : Ref sig .tc := ⟨.hbm, 24, rfl⟩
abbrev main_c_4 : Ref sig .tc := ⟨.hbm, 25, rfl⟩
abbrev main_v6 : Ref sig .tc := ⟨.hbm, 26, rfl⟩
abbrev main_c_5 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x4096 : S_.BroadcastsInDim S4x4096 (![] : Fin 0 → Fin S4x4096.rank)
  bcast_S_S8x8 : S_.BroadcastsInDim S8x8 (![] : Fin 0 → Fin S8x8.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  iota_S1x1x128_d2_w32 : S1x1x128.Iotas .tc 32 [2]
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S4x512_S4x512x1 : S4x512.ShapeCasts S4x512x1
  broadcasts_S4x512x1_S4x512x128 : S4x512x1.Broadcasts S4x512x128
  broadcasts_S1x1x128_S4x512x128 : S1x1x128.Broadcasts S4x512x128
  natLt_1_32 : 1 < 32
  bitsLt_bf16_f32 : FTy.bits .bf16 < FTy.bits .f32
  shapeCasts_S4x512x128_S2048x128 : S4x512x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2048x128_S4x512x128 : S2048x128.ShapeCasts S4x512x128
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  shapeCasts_S4x1024_S4x1024x1 : S4x1024.ShapeCasts S4x1024x1
  broadcasts_S4x1024x1_S4x1024x128 : S4x1024x1.Broadcasts S4x1024x128
  broadcasts_S1x1x128_S4x1024x128 : S1x1x128.Broadcasts S4x1024x128
  slices_S4x1024x128_o0_0_0_S4x512x128 : S4x1024x128.Slices ![0, 0, 0] S4x512x128
  shapeCasts_S4x512x512_S4x1x512x512 : S4x512x512.ShapeCasts S4x1x512x512
  inb_S4x1x512x1024_S4x1x512x512_0_0_0_0 : ∀ a, (![0, 0, 0, 0] : Fin 4 → Nat) a + S4x1x512x512.size a ≤ S4x1x512x1024.size a
  h_S4x1x512x512 : 0 < S4x1x512x512.numel
  slices_S4x1024x128_o0_512_0_S4x512x128 : S4x1024x128.Slices ![0, 512, 0] S4x512x128
  inb_S4x1x512x1024_S4x1x512x512_0_0_0_512 : ∀ a, (![0, 0, 0, 512] : Fin 4 → Nat) a + S4x1x512x512.size a ≤ S4x1x512x1024.size a
  scatter_S128x128_S2_S8x8_01_n_01_0_wf : ScatterDims.WF S128x128 S2 S8x8 [0, 1] [] [0, 1] 0
  dot_S2048x128_S128x128_S2048x128_1_0_0_1_n_n_wf : DotDims.WF S2048x128 S128x128 S2048x128 [1] [0] [0] [1] [] []
  dot_S4x512x128_S4x512x128_S4x512x512_2_2_1_1_0_0_wf : DotDims.WF S4x512x128 S4x512x128 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512.size a ≤ S4x4096.size a
  hwx0_0 : ∀ i : grid0.Coords, EltTy.bits .i32 = 32 ∨ (Rect.block (s := S4x4096) S4x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x4096.size a
  hwx0_2 : ∀ i : grid0.Coords, EltTy.bits .i32 = 32 ∨ (Rect.block (s := S4x4096) S4x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512x1024.size a ≤ S4x1x4096x4096.size a
  hwx0_3 : ∀ i : grid0.Coords, EltTy.bits .f32 = 32 ∨ (Rect.block (s := S4x1x4096x4096) S4x1x512x1024.size (cc0_transform_3 i) (hinb0_3 i)).WholeWords (EltTy.packing .f32)

variable [Facts₀]

def scatter_S128x128_S2_S8x8_01_n_01_0 : ScatterDims S128x128 S2 S8x8 where
  updateWindowDims := [0, 1]
  insertedWindowDims := []
  scatterDimsToOperandDims := [0, 1]
  indexVectorDim := 0
  wf := scatter_S128x128_S2_S8x8_01_n_01_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf

abbrev win0_0 : Pipeline.Window sig grid0 :=
  Pipeline.Window.ofSpec (Memref.whole main_v0) S4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4x1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096 : Shape := ⟨2, ![4, 4096]⟩
abbrev S8x8 : Shape := ⟨2, ![8, 8]⟩
abbrev S4x4096x1 : Shape := ⟨3, ![4, 4096, 1]⟩
abbrev S4x1x4096 : Shape := ⟨3, ![4, 1, 4096]⟩
abbrev S_ : Shape := ⟨0, ![]⟩
abbrev S4x4096x4096 : Shape := ⟨3, ![4, 4096, 4096]⟩
abbrev S4x4096x4096x1 : Shape := ⟨4, ![4, 4096, 4096, 1]⟩
abbrev S4x4096x4096x2 : Shape := ⟨4, ![4, 4096, 4096, 2]⟩
abbrev S4x1x4096x4096 : Shape := ⟨4, ![4, 1, 4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4x4096, .i32⟩
  | .hbm, ⟨2, _⟩ => ⟨S8x8, .f32⟩
  | .hbm, ⟨3, _⟩ => ⟨S4x4096x1, .i32⟩
  | .hbm, ⟨4, _⟩ => ⟨S4x1x4096, .i32⟩
  | .hbm, ⟨5, _⟩ => ⟨S_, .i32⟩
  | .hbm, ⟨6, _⟩ => ⟨S4x4096x1, .i32⟩
  | .hbm, ⟨7, _⟩ => ⟨S4x4096x1, .i1⟩
  | .hbm, ⟨8, _⟩ => ⟨S_, .i32⟩
  | .hbm, ⟨9, _⟩ => ⟨S4x4096x1, .i32⟩
  | .hbm, ⟨10, _⟩ => ⟨S4x4096x1, .i32⟩
  | .hbm, ⟨11, _⟩ => ⟨S4x4096x1, .i32⟩
  | .hbm, ⟨12, _⟩ => ⟨S_, .i32⟩
  | .hbm, ⟨13, _⟩ => ⟨S4x1x4096, .i32⟩
  | .hbm, ⟨14, _⟩ => ⟨S4x1x4096, .i1⟩
  | .hbm, ⟨15, _⟩ => ⟨S_, .i32⟩
  | .hbm, ⟨16, _⟩ => ⟨S4x1x4096, .i32⟩
  | .hbm, ⟨17, _⟩ => ⟨S4x1x4096, .i32⟩
  | .hbm, ⟨18, _⟩ => ⟨S4x1x4096, .i32⟩
  | .hbm, ⟨19, _⟩ => ⟨S4x4096x4096, .i32⟩
  | .hbm, ⟨20, _⟩ => ⟨S4x4096x4096, .i32⟩
  | .hbm, ⟨21, _⟩ => ⟨S4x4096x4096x1, .i32⟩
  | .hbm, ⟨22, _⟩ => ⟨S4x4096x4096x1, .i32⟩
  | .hbm, ⟨23, _⟩ => ⟨S4x4096x4096x2, .i32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .i1⟩
  | .hbm, ⟨28, _⟩ => ⟨S_, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x1x4096x4096, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S_S4x4096x1 : S_.BroadcastsInDim S4x4096x1 (![] : Fin 0 → Fin S4x4096x1.rank)
  bcast_S_S4x1x4096 : S_.BroadcastsInDim S4x1x4096 (![] : Fin 0 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S4x4096x4096_S4x4096x4096x1_0_1_2 : S4x4096x4096.BroadcastsInDim S4x4096x4096x1 (![0, 1, 2] : Fin 3 → Fin S4x4096x4096x1.rank)
  concatenates_S4x4096x4096x1_S4x4096x4096x1_S4x4096x4096x2_d3 : Shape.Concatenates [S4x4096x4096x1, S4x4096x4096x1] S4x4096x4096x2 3
  bcast_S_S4x4096x4096 : S_.BroadcastsInDim S4x4096x4096 (![] : Fin 0 → Fin S4x4096x4096.rank)
  bcast_S4x4096x4096_S4x1x4096x4096_0_2_3 : S4x4096x4096.BroadcastsInDim S4x1x4096x4096 (![0, 2, 3] : Fin 3 → Fin S4x1x4096x4096.rank)
  gather_S8x8_S4x4096x4096x2_S4x4096x4096_n_01_n_n_01_3_11_wf : GatherDims.WF S8x8 S4x4096x4096x2 S4x4096x4096 [] [0, 1] [] [0, 1] [] 3 ![1, 1]

variable [Facts₀]

def gather_S8x8_S4x4096x4096x2_S4x4096x4096_n_01_n_n_01_3_11 : GatherDims S8x8 S4x4096x4096x2 S4x4096x4096 where
  offsetDims := []
  collapsedSliceDims := [0, 1]
  operandBatchingDims := []
  startIndicesBatchingDims := []
  startIndexMap := [0, 1]
  indexVectorDim := 3
  sliceSizes := ![1, 1]
  wf := gather_S8x8_S4x4096x4096x2_S4x4096x4096_n_01_n_n_01_3_11_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-! The role mask as one function of its three arguments.

    `allowed[b, i, j] = table[roles_q[b, i], roles_k[b, j]]` and the mask entry is `0` where `allowed > 1/2` and
    `-1e9` elsewhere, laid out as `[4, 1, 4096, 4096]`. A role id is read as a coordinate of the `8 × 8` table; the
    precondition says every id lies in `[0, 8)`, so the coordinate is the id itself. -/

noncomputable section

namespace Cert.RoleMask

open Idealize.ShloMosaic Idealize.ShloMosaic.ValueIdx

/-- The mask entry decided by one table entry: `0` when the entry exceeds one half, `-1e9` otherwise. -/
def maskOf (a : EReal) : EReal :=
  Scalar.select (Ideal.cmp .ogt a (Ideal.ofBits .f32 0x3F000000#32)) (Ideal.ofBits .f32 0x00000000#32) (Ideal.ofBits .f32 0xCE6E6B28#32)

/-- Every role id of the array is a coordinate of the `8 × 8` table. -/
def InRange (q : IVec ⟨2, ![4, 4096]⟩ 32) : Prop := ∀ i, (q i).toNat < 8

/-- A role id as a table coordinate (total: ids beyond the table read its last row; in range it is the id). -/
def roleIx (w : BitVec 32) : Fin 8 := ⟨min w.toNat 7, by omega⟩

theorem roleIx_val_of_lt {w : BitVec 32} (h : w.toNat < 8) : (roleIx w).val = w.toNat := by
  show min w.toNat 7 = w.toNat; omega

/-- The role mask: entry `(b, 0, i, j)` is decided by the table at the roles of query `i` and key `j` of batch `b`. -/
def G (q k : IVec ⟨2, ![4, 4096]⟩ 32) (A : FVec Ideal ⟨2, ![8, 8]⟩ .f32) : FVec Ideal ⟨4, ![4, 1, 4096, 4096]⟩ .f32 :=
  fun x => maskOf (A (ix2 (roleIx (q (ix2 (x 0) (x 2)))) (roleIx (k (ix2 (x 0) (x 3))))))

/-- One half, exactly. -/
theorem half_eq : Ideal.ofBits .f32 0x3F000000#32 = ((1 / 2 : ℝ) : EReal) := by
  simp [Ideal.ofBits, Ideal.ieee]
  exact_mod_cast (by norm_num : (8388608 : ℝ) * (2 ^ 24)⁻¹ = 2⁻¹)

/-- Thresholding twice is thresholding once: the indicator of `a > 1/2`, as the number 0 or 1, exceeds one half exactly
    when `a` does. -/
theorem maskOf_indicator (a : EReal) :
    maskOf (((Ideal.cmp .ogt a (Ideal.ofBits .f32 0x3F000000#32)).toNat : ℝ) : EReal) = maskOf a := by
  unfold maskOf
  congr 1
  by_cases h : Ideal.ofBits .f32 0x3F000000#32 < a
  · have e : Ideal.cmp .ogt a (Ideal.ofBits .f32 0x3F000000#32) = 1#1 := by simp [Ideal.cmp, h]
    rw [e]
    have : Ideal.ofBits .f32 0x3F000000#32 < (1 : EReal) := by
      rw [half_eq]; exact_mod_cast (by norm_num : (1 / 2 : ℝ) < 1)
    simp [Ideal.cmp, this]
  · have e : Ideal.cmp .ogt a (Ideal.ofBits .f32 0x3F000000#32) = 0#1 := by simp [Ideal.cmp, h]
    rw [e]
    have : ¬ Ideal.ofBits .f32 0x3F000000#32 < (0 : EReal) := by
      rw [half_eq]; exact_mod_cast (by norm_num : ¬ (1 / 2 : ℝ) < 0)
    simp [Ideal.cmp, this]

/-- A sum against an indicator picks one term: over the extended reals, with `δ c` one at `c = k` and zero elsewhere. -/
theorem sum_mul_indicator {n : Nat} (f : Fin n → EReal) (δ : Fin n → EReal) (k : Fin n)
    (h1 : δ k = 1) (h0 : ∀ c, c ≠ k → δ c = 0) : ∑ c, f c * δ c = f k := by
  rw [Finset.sum_eq_single k (fun c _ hc => by rw [h0 c hc, mul_zero]) (fun h => absurd (Finset.mem_univ k) h), h1, mul_one]

theorem sum_indicator_mul {n : Nat} (f : Fin n → EReal) (δ : Fin n → EReal) (k : Fin n)
    (h1 : δ k = 1) (h0 : ∀ c, c ≠ k → δ c = 0) : ∑ c, δ c * f c = f k := by
  rw [Finset.sum_eq_single k (fun c _ hc => by rw [h0 c hc, zero_mul]) (fun h => absurd (Finset.mem_univ k) h), h1, one_mul]

end Cert.RoleMask

end
-- ==== Proof.PreRange.lean ====
import proofs.«415536_j42923903156437_3_alg».proof.Proof.Spec
import proofs.«415536_j42923903156437_3_alg».proof.Pre_finite_inputs
import Idealize.ShloMosaic.Lib.ReduceAll
import Idealize.ShloMosaic.Lib.StableHlo.Predicate

noncomputable section

open Idealize.ShloMosaic Idealize.ShloMosaic.ValueIdx Idealize.ShloMosaic.TcCoe Idealize.SL.Sem

namespace Cert.RoleMask

/-- A pointwise conjunction of bits that is one at an index has both bits one there. -/
private theorem andi_apply_eq_one {s : Shape} (x y : IVec s 1) (i : s.Idx) (h : andi x y i = 1#1) :
    x i = 1#1 ∧ y i = 1#1 :=
  IntOp.andi_eq_one.1 h

/-- A 32-bit word that is signed-nonnegative and signed-below eight has unsigned value below eight. -/
private theorem toNat_lt_eight {w : BitVec 32} (h1 : IntOp.cmpi .sge w 0#32 = 1#1) (h2 : IntOp.cmpi .slt w 8#32 = 1#1) :
    w.toNat < 8 := by
  rw [IntOp.cmpi_sge, show (0#32 : BitVec 32).toInt = 0 from by decide] at h1
  rw [IntOp.cmpi_slt, show (8#32 : BitVec 32).toInt = 8 from by decide] at h2
  rw [BitVec.toInt_eq_toNat_cond] at h1 h2
  split at h1 <;> omega

/-- The precondition, all ones, says that every role id of both arrays lies in `[0, 8)`. -/
theorem inRange_of_pre [Cert.Pre_finite_inputs.Facts] {F : FTy → Type} [FloatOps F] (a0 a1 : IVec ⟨2, ![4, 4096]⟩ 32)
    (a2 : FVec F ⟨2, ![8, 8]⟩ .f32) (h : Cert.Pre_finite_inputs.fn (F := F) a0 a1 a2 = fun _ => 1#1) :
    InRange a0 ∧ InRange a1 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1, hk8⟩ := andi_apply_eq_one _ _ _ h0
  obtain ⟨h2, hk0⟩ := andi_apply_eq_one _ _ _ h1
  obtain ⟨h3, hq8⟩ := andi_apply_eq_one _ _ _ h2
  obtain ⟨_, hq0⟩ := andi_apply_eq_one _ _ _ h3
  refine ⟨fun i => ?_, fun i => ?_⟩
  · exact toNat_lt_eight (Host.reduce_andi_all _ _ _ _ _ hq0 i) (Host.reduce_andi_all _ _ _ _ _ hq8 i)
  · exact toNat_lt_eight (Host.reduce_andi_all _ _ _ _ _ hk0 i) (Host.reduce_andi_all _ _ _ _ _ hk8 i)

end Cert.RoleMask

end
-- ==== Proof.RefValue.lean ====
import proofs.«415536_j42923903156437_3_alg».proof.Proof.Spec
import proofs.«415536_j42923903156437_3_alg».proof.Proof.Gen.ReferenceIdeal.Read
import Idealize.ShloMosaic.Lib.StableHlo.Predicate

noncomputable section

open Idealize.ShloMosaic Idealize.ShloMosaic.ValueIdx Idealize.ShloMosaic.TcCoe Idealize.SL.Sem

namespace Cert.RoleMask

open Cert.ReferenceIdeal Cert.ReferenceIdeal.Read

/-- The gather of the table read at `(b, i, j)`: the table at the two start-index components found at `(b, i, j, 0)` and
    `(b, i, j, 1)`, each read signed and clamped into `[0, 7]`. -/
private theorem gather_read {α : Type} (A : S8x8.Idx → α) (idx : IVec S4x4096x4096x2 32) (j : S4x4096x4096.Idx) (a b : Fin 8)
    (ha : a.val = min (idx (ix4 (j 0) (j 1) (j 2) 0)).toInt.toNat 7)
    (hb : b.val = min (idx (ix4 (j 0) (j 1) (j 2) 1)).toInt.toNat 7) :
    Host.gather gather_S8x8_S4x4096x4096x2_S4x4096x4096_n_01_n_n_01_3_11 A idx j = A (ix2 a b) := by
  unfold Host.gather
  congr 1
  funext c
  refine Fin.ext ?_
  match c with
  | ⟨0, _⟩ =>
    show gather_S8x8_S4x4096x4096x2_S4x4096x4096_n_01_n_n_01_3_11.start j idx 0
      + gather_S8x8_S4x4096x4096x2_S4x4096x4096_n_01_n_n_01_3_11.batchCoord j 0
      + gather_S8x8_S4x4096x4096x2_S4x4096x4096_n_01_n_n_01_3_11.offCoord j 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8x8_S4x4096x4096x2_S4x4096x4096_n_01_n_n_01_3_11.startIndexMap from by decide)]
    have hsi : gather_S8x8_S4x4096x4096x2_S4x4096x4096_n_01_n_n_01_3_11.siIdx j
        ⟨List.idxOf (0 : Fin 2) gather_S8x8_S4x4096x4096x2_S4x4096x4096_n_01_n_n_01_3_11.startIndexMap,
          List.idxOf_lt_length_iff.2 (by decide)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    exact ha.symm
  | ⟨1, _⟩ =>
    show gather_S8x8_S4x4096x4096x2_S4x4096x4096_n_01_n_n_01_3_11.start j idx 1
      + gather_S8x8_S4x4096x4096x2_S4x4096x4096_n_01_n_n_01_3_11.batchCoord j 1
      + gather_S8x8_S4x4096x4096x2_S4x4096x4096_n_01_n_n_01_3_11.offCoord j 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8x8_S4x4096x4096x2_S4x4096x4096_n_01_n_n_01_3_11.startIndexMap from by decide)]
    have hsi : gather_S8x8_S4x4096x4096x2_S4x4096x4096_n_01_n_n_01_3_11.siIdx j
        ⟨List.idxOf (1 : Fin 2) gather_S8x8_S4x4096x4096x2_S4x4096x4096_n_01_n_n_01_3_11.startIndexMap,
          List.idxOf_lt_length_iff.2 (by decide)⟩ = ix4 (j 0) (j 1) (j 2) 1 := by
      funext b; refine Fin.ext ?_
      match b with
      | ⟨0, _⟩ => rfl
      | ⟨1, _⟩ => rfl
      | ⟨2, _⟩ => rfl
      | ⟨3, _⟩ => rfl
    rw [hsi]
    exact hb.symm

/-- The start indices at last coordinate `0` are the first piece of the concatenation there. -/
private theorem v16_zero (q k : IVec ⟨2, ![4, 4096]⟩ 32) (j : S4x4096x4096.Idx) :
    val_main_v16 (F := Ideal) q k (ix4 (j 0) (j 1) (j 2) 0) = val_main_v14 (F := Ideal) q (ix4 (j 0) (j 1) (j 2) 0) := by
  unfold val_main_v16
  exact Idealize.ShloMosaic.concatenate_pair_apply_left (t := S4x4096x4096x2) (s₁ := S4x4096x4096x1) (s₂ := S4x4096x4096x1)
    (3 : Fin 4) _ _ _ _ rfl _ (fun b => match b with
    | ⟨0, _⟩ => rfl
    | ⟨1, _⟩ => rfl
    | ⟨2, _⟩ => rfl
    | ⟨3, _⟩ => rfl)

/-- The start indices at last coordinate `1` are the second piece of the concatenation at its coordinate `0`. -/
private theorem v16_one (q k : IVec ⟨2, ![4, 4096]⟩ 32) (j : S4x4096x4096.Idx) :
    val_main_v16 (F := Ideal) q k (ix4 (j 0) (j 1) (j 2) 1) = val_main_v15 (F := Ideal) k (ix4 (j 0) (j 1) (j 2) 0) := by
  unfold val_main_v16
  exact Idealize.ShloMosaic.concatenate_pair_apply_right (t := S4x4096x4096x2) (s₁ := S4x4096x4096x1) (s₂ := S4x4096x4096x1)
    (3 : Fin 4) _ _ _ _ rfl rfl _ (fun b => match b with
    | ⟨0, _⟩ => fun _ => rfl
    | ⟨1, _⟩ => fun _ => rfl
    | ⟨2, _⟩ => fun _ => rfl
    | ⟨3, _⟩ => fun h => absurd (Fin.ext rfl) h) rfl

/-- The first piece at `(b, i, j, 0)`: the query role of `(b, i)`, eight added when it reads negative. -/
private theorem v14_read (q : IVec ⟨2, ![4, 4096]⟩ 32) (j : S4x4096x4096.Idx) :
    val_main_v14 (F := Ideal) q (ix4 (j 0) (j 1) (j 2) 0)
      = Scalar.select (IntOp.cmpi .slt (q (ix2 (j 0) (j 1))) 0#32) (IntOp.addi (q (ix2 (j 0) (j 1))) 8#32) (q (ix2 (j 0) (j 1))) := by
  have e : idx_main_v0 (idx_main_v12 (idx_main_v14 (ix4 (j 0) (j 1) (j 2) (0 : Fin 1)))) = ix2 (j 0) (j 1) := by
    funext a; match a with | ⟨0, _⟩ => rfl | ⟨1, _⟩ => rfl
  rw [val_main_v14_apply, val_main_v12_apply, val_main_v6_apply, val_main_v3_apply, val_main_v5_apply, val_main_v0_apply,
    val_main_v2_apply, val_main_v4_apply, val_main_c_apply, val_main_c_0_apply, e]
  rfl

/-- The second piece at `(b, i, j, 0)`: the key role of `(b, j)`, eight added when it reads negative. -/
private theorem v15_read (k : IVec ⟨2, ![4, 4096]⟩ 32) (j : S4x4096x4096.Idx) :
    val_main_v15 (F := Ideal) k (ix4 (j 0) (j 1) (j 2) 0)
      = Scalar.select (IntOp.cmpi .slt (k (ix2 (j 0) (j 2))) 0#32) (IntOp.addi (k (ix2 (j 0) (j 2))) 8#32) (k (ix2 (j 0) (j 2))) := by
  have e : idx_main_v1 (idx_main_v13 (idx_main_v15 (ix4 (j 0) (j 1) (j 2) (0 : Fin 1)))) = ix2 (j 0) (j 2) := by
    funext a; match a with | ⟨0, _⟩ => rfl | ⟨1, _⟩ => rfl
  rw [val_main_v15_apply, val_main_v13_apply, val_main_v11_apply, val_main_v8_apply, val_main_v10_apply, val_main_v1_apply,
    val_main_v7_apply, val_main_v9_apply, val_main_c_1_apply, val_main_c_2_apply, e]
  rfl

/-- A role id below eight is not negative, so the wrap leaves it, and its signed reading clamped into `[0, 7]` is its
    table coordinate. -/
private theorem wrap_clamp {w : BitVec 32} (h : w.toNat < 8) :
    (roleIx w).val = min (Scalar.select (IntOp.cmpi .slt w 0#32) (IntOp.addi w 8#32) w).toInt.toNat 7 := by
  have hc : IntOp.cmpi .slt w 0#32 = 0#1 :=
    eq_zero_of_ne_one (fun e => Nat.not_lt_zero _ ((StableHlo.Predicate.slt_iff_toNat (by omega) (by decide)).1 e))
  rw [hc, select_zero, StableHlo.Predicate.toInt_eq_toNat_of_lt (by omega), Int.toNat_natCast]
  rfl

/-- The gathered table entry at `(b, i, j)`, for role ids in range: the table at the roles of query `i` and key `j`. -/
private theorem v17_read (q k : IVec ⟨2, ![4, 4096]⟩ 32) (A : FVec Ideal ⟨2, ![8, 8]⟩ .f32) (hq : InRange q) (hk : InRange k)
    (j : S4x4096x4096.Idx) :
    val_main_v17 (F := Ideal) q k A j = A (ix2 (roleIx (q (ix2 (j 0) (j 1)))) (roleIx (k (ix2 (j 0) (j 2))))) := by
  unfold val_main_v17
  refine gather_read A _ j _ _ ?_ ?_
  · rw [v16_zero, v14_read]; exact wrap_clamp (hq _)
  · rw [v16_one, v15_read]; exact wrap_clamp (hk _)

/-- The reference's result, for role ids in range, is the role mask `G`. -/
theorem ref_eq_G (q k : IVec ⟨2, ![4, 4096]⟩ 32) (A : FVec Ideal ⟨2, ![8, 8]⟩ .f32) (hq : InRange q) (hk : InRange k) :
    Cert.ReferenceIdeal.Read.val_main_v21 (F := Ideal) q k A = G q k A := by
  funext i
  rw [val_main_v21_apply, val_main_v20_apply, val_main_v19_apply, val_main_call0_v0_apply, val_main_call0_v1_apply,
    val_main_cst_3_apply, val_main_cst_4_apply, val_main_v18_apply, val_main_cst_apply, v17_read q k A hq hk]
  rfl

end Cert.RoleMask

end
-- ==== Proof.PayRows.lean ====
import proofs.«415536_j42923903156437_3_alg».proof.Proof.Spec
import proofs.«415536_j42923903156437_3_alg».proof.Proof.Gen.KernelIdeal.Skeleton
import Idealize.ShloMosaic.Lib.Pipeline.Value
import Idealize.ShloMosaic.Lib.ValueLayout
import Idealize.ShloMosaic.Lib.StableHlo.Predicate

noncomputable section

open Idealize.ShloMosaic Idealize.ShloMosaic.ValueIdx Idealize.ShloMosaic.TcCoe Idealize.SL.Sem

namespace Cert.RoleMask

open Cert.KernelIdeal Cert.KernelIdeal.Gen
open Idealize.ShloMosaic.StableHlo.Predicate (cmpi_eq_iff)

/-- A column of ids broadcast along 128 lanes reads the id of its row. -/
theorem bcast_ids_apply {N : Nat} (x : (⟨2, ![4, N]⟩ : Shape).Idx → BitVec 32)
    (h1 : (⟨2, ![4, N]⟩ : Shape).ShapeCasts ⟨2, ![4, N]⟩) (h2 : (⟨2, ![4, N]⟩ : Shape).ShapeCasts ⟨3, ![4, N, 1]⟩)
    (h3 : (⟨3, ![4, N, 1]⟩ : Shape).Broadcasts ⟨3, ![4, N, 128]⟩) (b : Fin 4) (s : Fin N) (c : Fin 128) :
    broadcastTo ⟨3, ![4, N, 128]⟩ (shapeCast ⟨3, ![4, N, 1]⟩ (shapeCast ⟨2, ![4, N]⟩ x h1) h2) h3 (ix3 b s c) = x (ix2 b s) := by
  rw [shapeCast_self]
  refine (broadcastTo_apply _ h3 (ix3 b s c) (ix3 b s (0 : Fin 1)) (fun a => ?_)).trans ?_
  · match a with
    | ⟨0, _⟩ => rfl
    | ⟨1, _⟩ =>
      show s.val = if N = 1 then 0 else s.val
      split
      · have := s.isLt; omega
      · rfl
    | ⟨2, _⟩ => rfl
  · refine shapeCast_apply x h2 (ix3 b s (0 : Fin 1)) (ix2 b s) ?_
    rw [Shape.rowMajor_val_two, Shape.rowMajor_val_three]
    show b.val * N + s.val = (b.val * N + s.val) * 1 + 0
    omega

/-- The lane counter broadcast over every row reads the lane. -/
theorem bcast_iota_apply {N : Nat} (hi : (⟨3, ![1, 1, 128]⟩ : Shape).Iotas .tc 32 [2])
    (h3 : (⟨3, ![1, 1, 128]⟩ : Shape).Broadcasts ⟨3, ![4, N, 128]⟩) (b : Fin 4) (s : Fin N) (c : Fin 128) :
    broadcastTo ⟨3, ![4, N, 128]⟩ (iota .tc ⟨3, ![1, 1, 128]⟩ 32 [2] hi) h3 (ix3 b s c) = BitVec.ofNat 32 c.val := by
  refine (broadcastTo_apply _ h3 (ix3 b s c) (ix3 (0 : Fin 1) (0 : Fin 1) c) (fun a => ?_)).trans ?_
  · match a with
    | ⟨0, _⟩ => rfl
    | ⟨1, _⟩ => rfl
    | ⟨2, _⟩ => rfl
  · exact iota_single_apply .tc ⟨3, ![1, 1, 128]⟩ 32 2 hi _

/-- The widened comparison of an id with a lane, as a number: one when the id is the lane, zero otherwise. -/
theorem onehot_val (w : BitVec 32) (c : Nat) (hc : c < 128) :
    ((((IntOp.cmpi .eq w (BitVec.ofNat 32 c)).setWidth 32).toInt : ℝ) : EReal) = if w.toNat = c then (1 : EReal) else 0 := by
  by_cases h : w = BitVec.ofNat 32 c
  · have e : IntOp.cmpi .eq w (BitVec.ofNat 32 c) = 1#1 := cmpi_eq_iff.2 h
    have hw : w.toNat = c := by rw [h, BitVec.toNat_ofNat]; omega
    rw [e, if_pos hw]
    simp
  · have e : IntOp.cmpi .eq w (BitVec.ofNat 32 c) = 0#1 := eq_zero_of_ne_one (fun e => h (cmpi_eq_iff.1 e))
    have hw : ¬ w.toNat = c := fun hw => h (BitVec.eq_of_toNat_eq (by rw [hw, BitVec.toNat_ofNat]; omega))
    rw [e, if_neg hw]
    simp

/-- The one-hot of a [4, N] array of ids over 128 lanes, at an entry. -/
theorem onehot_apply {N : Nat} (x : (⟨2, ![4, N]⟩ : Shape).Idx → BitVec 32)
    (h1 : (⟨2, ![4, N]⟩ : Shape).ShapeCasts ⟨2, ![4, N]⟩) (h2 : (⟨2, ![4, N]⟩ : Shape).ShapeCasts ⟨3, ![4, N, 1]⟩)
    (h3 : (⟨3, ![4, N, 1]⟩ : Shape).Broadcasts ⟨3, ![4, N, 128]⟩) (hi : (⟨3, ![1, 1, 128]⟩ : Shape).Iotas .tc 32 [2])
    (h4 : (⟨3, ![1, 1, 128]⟩ : Shape).Broadcasts ⟨3, ![4, N, 128]⟩) (hw : 1 < 32) (hb : FTy.bits .bf16 < FTy.bits .f32)
    (b : Fin 4) (s : Fin N) (c : Fin 128) :
    (truncf .bf16 (sitofp (F := Ideal) .f32 (extui 32 (cmpi .eq
        (broadcastTo ⟨3, ![4, N, 128]⟩ (shapeCast ⟨3, ![4, N, 1]⟩ (shapeCast ⟨2, ![4, N]⟩ x h1) h2) h3)
        (broadcastTo ⟨3, ![4, N, 128]⟩ (iota .tc ⟨3, ![1, 1, 128]⟩ 32 [2] hi) h4)) hw)) hb : FVec Ideal ⟨3, ![4, N, 128]⟩ .bf16)
      (ix3 b s c) = if (x (ix2 b s)).toNat = c.val then (1 : EReal) else 0 := by
  simp only [truncf_apply, sitofp_apply, extui_apply]
  show FloatOps.sitofp (F := Ideal) .f32 ((IntOp.cmpi .eq
    (broadcastTo ⟨3, ![4, N, 128]⟩ (shapeCast ⟨3, ![4, N, 1]⟩ (shapeCast ⟨2, ![4, N]⟩ x h1) h2) h3 (ix3 b s c))
    (broadcastTo ⟨3, ![4, N, 128]⟩ (iota .tc ⟨3, ![1, 1, 128]⟩ 32 [2] hi) h4 (ix3 b s c))).setWidth 32) = _
  rw [bcast_ids_apply, bcast_iota_apply]
  exact onehot_val _ c.val c.isLt

/-- The one-hot of the key ids: entry `(b, s, c)` is one when key `s` of batch `b` has role `c`, zero otherwise. -/
theorem pay3_apply (x2 : Vec Ideal S4x1024 .i32) (b : Fin 4) (s : Fin 1024) (c : Fin 128) :
    k0_pay3 (F := Ideal) x2 (ix3 b s c) = if (x2 (ix2 b s)).toNat = c.val then (1 : EReal) else 0 := by
  unfold k0_pay3
  exact onehot_apply x2 _ _ _ _ _ _ _ b s c

/-! The product's operand indices, axis by axis: the left operand reads (row of the result, contraction position), the
    right operand (contraction position, column of the result). -/

theorem dot_lhs_0 (j : S2048x128.Idx) (k : dot_S2048x128_S128x128_S2048x128_1_0_0_1_n_n.contr.Idx) :
    (dot_S2048x128_S128x128_S2048x128_1_0_0_1_n_n.lhsIdx j k 0 : ℕ) = j 0 := by
  simp [DotDims.lhsIdx, dot_S2048x128_S128x128_S2048x128_1_0_0_1_n_n]; rfl

theorem dot_lhs_1 (j : S2048x128.Idx) (k : dot_S2048x128_S128x128_S2048x128_1_0_0_1_n_n.contr.Idx) :
    (dot_S2048x128_S128x128_S2048x128_1_0_0_1_n_n.lhsIdx j k 1 : ℕ) = k ⟨0, Nat.one_pos⟩ :=
  dot_S2048x128_S128x128_S2048x128_1_0_0_1_n_n.lhsIdx_val_of_single rfl j k

theorem dot_rhs_0 (j : S2048x128.Idx) (k : dot_S2048x128_S128x128_S2048x128_1_0_0_1_n_n.contr.Idx) :
    (dot_S2048x128_S128x128_S2048x128_1_0_0_1_n_n.rhsIdx j k 0 : ℕ) = k ⟨0, Nat.one_pos⟩ :=
  dot_S2048x128_S128x128_S2048x128_1_0_0_1_n_n.rhsIdx_val_of_single rfl j k

theorem dot_rhs_1 (j : S2048x128.Idx) (k : dot_S2048x128_S128x128_S2048x128_1_0_0_1_n_n.contr.Idx) :
    (dot_S2048x128_S128x128_S2048x128_1_0_0_1_n_n.rhsIdx j k 1 : ℕ) = j 1 := by
  simp [DotDims.rhsIdx, dot_S2048x128_S128x128_S2048x128_1_0_0_1_n_n]; rfl

/-- The one-hot of the query ids times the padded table gathers the table's rows: entry `(b, r, c)` is the table at
    (role of query `r` of batch `b`, `c`). -/
theorem pay2_apply (x0 : Vec Ideal S4x512 .i32) (x1 : Vec Ideal S128x128 .bf16) (h0 : ∀ i, (x0 i).toNat < 128)
    (b : Fin 4) (r : Fin 512) (c : Fin 128) :
    k0_pay2 (F := Ideal) x0 x1 (ix3 b r c) = x1 (ix2 ⟨(x0 (ix2 b r)).toNat, h0 _⟩ c) := by
  have hrow : b.val * 512 + r.val < 2048 := by have := b.isLt; have := r.isLt; omega
  unfold k0_pay2
  simp only [truncf_apply]
  -- the result of the product, viewed [4, 512, 128], reads row b * 512 + r of the [2048, 128] product
  refine (shapeCast_apply _ shapeCasts_S2048x128_S4x512x128 (ix3 b r c) (ix2 (⟨b.val * 512 + r.val, hrow⟩ : Fin 2048) c) (by
    rw [Shape.rowMajor_val_two, Shape.rowMajor_val_three]
    show (b.val * 512 + r.val) * 128 + c.val = (b.val * 512 + r.val) * 128 + c.val
    rfl)).trans ?_
  simp only [matmul]
  rw [Ideal.matmul_constant_zero_apply]
  -- the sum over the contraction index, as a sum over the 128 lanes
  refine ((Equiv.sum_comp (contrEquiv1 dot_S2048x128_S128x128_S2048x128_1_0_0_1_n_n 128 rfl rfl).symm _).symm.trans ?_)
  refine (Finset.sum_congr rfl (fun c' _ => ?_)).trans
    (sum_indicator_mul (fun c' : Fin 128 => x1 (ix2 c' c))
      (fun c' : Fin 128 => if (x0 (ix2 b r)).toNat = c'.val then (1 : EReal) else 0) ⟨(x0 (ix2 b r)).toNat, h0 _⟩
      (if_pos rfl) (fun c' hc => if_neg (fun h => hc (Fin.ext h.symm))))
  have hL : dot_S2048x128_S128x128_S2048x128_1_0_0_1_n_n.lhsIdx (ix2 (⟨b.val * 512 + r.val, hrow⟩ : Fin 2048) c)
      ((contrEquiv1 dot_S2048x128_S128x128_S2048x128_1_0_0_1_n_n 128 rfl rfl).symm c')
      = ix2 (⟨b.val * 512 + r.val, hrow⟩ : Fin 2048) c' :=
    Shape.idx_ext₂ (by rw [dot_lhs_0]) (by rw [dot_lhs_1]; exact contrEquiv1_symm_val _ 128 rfl rfl c')
  have hR : dot_S2048x128_S128x128_S2048x128_1_0_0_1_n_n.rhsIdx (ix2 (⟨b.val * 512 + r.val, hrow⟩ : Fin 2048) c)
      ((contrEquiv1 dot_S2048x128_S128x128_S2048x128_1_0_0_1_n_n 128 rfl rfl).symm c')
      = ix2 c' c :=
    Shape.idx_ext₂ (by rw [dot_rhs_0]; exact contrEquiv1_symm_val _ 128 rfl rfl c') (by rw [dot_rhs_1])
  show _ * _ = _ * _
  rw [hL, hR]
  refine congrArg₂ (· * ·) ?_ (congrFun (shapeCast_self x1 _) _)
  -- the one-hot viewed [2048, 128] reads, at row b * 512 + r, its entry (b, r, lane)
  refine (shapeCast_apply _ shapeCasts_S4x512x128_S2048x128 (ix2 (⟨b.val * 512 + r.val, hrow⟩ : Fin 2048) c') (ix3 b r c') (by
    rw [Shape.rowMajor_val_two, Shape.rowMajor_val_three]
    show (b.val * 512 + r.val) * 128 + c'.val = (b.val * 512 + r.val) * 128 + c'.val
    rfl)).trans ?_
  exact onehot_apply x0 _ _ _ _ _ _ _ b r c'

end Cert.RoleMask

end
-- ==== Proof.BodyValue.lean ====
import proofs.«415536_j42923903156437_3_alg».proof.Proof.Spec
import proofs.«415536_j42923903156437_3_alg».proof.Proof.Gen.KernelIdeal.Frame
import proofs.«415536_j42923903156437_3_alg».proof.Proof.PayRows
import Idealize.ShloMosaic.Lib.Pipeline.Value
import Idealize.ShloMosaic.Lib.ValueLayout

noncomputable section

open Idealize.ShloMosaic Idealize.ShloMosaic.ValueIdx Idealize.ShloMosaic.TcCoe Idealize.SL.Sem

namespace Cert.RoleMask

open Cert.KernelIdeal Cert.KernelIdeal.Gen

/-! The output block is written by two stores, each a thresholded batched product of the query rows' table rows with
    the one-hot rows of 512 keys; each product entry is a sum against an indicator, which picks one table entry. -/

namespace Body

/-- The batched product's dimension numbers: batch axis 0 on both sides, rows and columns on axis 1, the contraction on
    axis 2. -/
abbrev dotD := dot_S4x512x128_S4x512x128_S4x512x512_2_2_1_1_0_0

theorem dot_lhs2 (j : S4x512x512.Idx) (k : dotD.contr.Idx) : (dotD.lhsIdx j k 2).val = (k ⟨0, by decide⟩).val := rfl
theorem dot_rhs2 (j : S4x512x512.Idx) (k : dotD.contr.Idx) : (dotD.rhsIdx j k 2).val = (k ⟨0, by decide⟩).val := rfl

/-- The contraction index is its one coordinate, of extent 128. -/
def dotE : dotD.contr.Idx ≃ Fin 128 := contrEquiv1 dotD 128 rfl rfl

/-- The left operand of entry (b, r, s) at contraction position c is read at (b, r, c). -/
theorem dot_lhsIdx_eq (b : Fin 4) (r s : Fin 512) (c : Fin 128) :
    dotD.lhsIdx (ix3 b r s) (dotE.symm c) = ix3 b r c := by
  funext a
  apply Fin.ext
  match a with
  | ⟨0, _⟩ => rfl
  | ⟨1, _⟩ => rfl
  | ⟨2, _⟩ => exact (dot_lhs2 _ _).trans (contrEquiv1_symm_val dotD 128 rfl rfl c)

/-- The right operand of entry (b, r, s) at contraction position c is read at (b, s, c). -/
theorem dot_rhsIdx_eq (b : Fin 4) (r s : Fin 512) (c : Fin 128) :
    dotD.rhsIdx (ix3 b r s) (dotE.symm c) = ix3 b s c := by
  funext a
  apply Fin.ext
  match a with
  | ⟨0, _⟩ => rfl
  | ⟨1, _⟩ => rfl
  | ⟨2, _⟩ => exact (dot_rhs2 _ _).trans (contrEquiv1_symm_val dotD 128 rfl rfl c)

/-- The batched product into the zero splat at entry (b, r, s): the plain sum over the 128 contraction positions. -/
theorem dot_entry (L R : FVec Ideal S4x512x128 .bf16) (b : Fin 4) (r s : Fin 512) :
    matmul dotD none L R (constant (F := Ideal) S4x512x512 .f32 0x00000000#32) (ix3 b r s)
      = ∑ c : Fin 128, L (ix3 b r c) * R (ix3 b s c) := by
  simp only [matmul]
  rw [Ideal.matmul_constant_zero_apply, ← Equiv.sum_comp dotE.symm]
  refine Finset.sum_congr rfl fun c _ => ?_
  rw [dot_lhsIdx_eq, dot_rhsIdx_eq]

/-- One entry of a tile's product, the right operand being rows of the keys' one-hot: the sum against the indicator
    picks the table at the query row's role and the key's role. -/
theorem tile_entry (x0 : Vec Ideal S4x512 .i32) (x1 : Vec Ideal S128x128 .bf16) (x2 : Vec Ideal S4x1024 .i32)
    (h0 : ∀ i, (x0 i).toNat < 128) (h2 : ∀ i, (x2 i).toNat < 128)
    (R : FVec Ideal S4x512x128 .bf16) (key : Fin 512 → Fin 1024)
    (hR : ∀ (b : Fin 4) (s : Fin 512) (c : Fin 128), R (ix3 b s c) = k0_pay3 (F := Ideal) x2 (ix3 b (key s) c))
    (b : Fin 4) (r s : Fin 512) :
    matmul dotD none (k0_pay2 (F := Ideal) x0 x1) R (constant (F := Ideal) S4x512x512 .f32 0x00000000#32) (ix3 b r s)
      = x1 (ix2 ⟨(x0 (ix2 b r)).toNat, h0 _⟩ ⟨(x2 (ix2 b (key s))).toNat, h2 _⟩) := by
  rw [dot_entry]
  have e : ∀ c : Fin 128, k0_pay2 (F := Ideal) x0 x1 (ix3 b r c) * R (ix3 b s c)
      = x1 (ix2 ⟨(x0 (ix2 b r)).toNat, h0 _⟩ c) * (if (x2 (ix2 b (key s))).toNat = c.val then (1 : EReal) else 0) :=
    fun c => by rw [pay2_apply x0 x1 h0, hR, pay3_apply]
  rw [Finset.sum_congr rfl fun c _ => e c]
  exact sum_mul_indicator (fun c => x1 (ix2 ⟨(x0 (ix2 b r)).toNat, h0 _⟩ c))
    (fun c => if (x2 (ix2 b (key s))).toNat = c.val then (1 : EReal) else 0) ⟨(x2 (ix2 b (key s))).toNat, h2 _⟩
    (if_pos rfl) (fun c hc => if_neg fun h => hc (Fin.ext h.symm))

/-- The cast that inserts the unit axis reads (b, 0, r, s) at (b, r, s). -/
theorem cast_apply {α : Type} (v : S4x512x512.Idx → α) (h : S4x512x512.ShapeCasts S4x1x512x512)
    (b : Fin 4) (u : Fin 1) (r s : Fin 512) :
    shapeCast S4x1x512x512 v h (ix4 b u r s) = v (ix3 b r s) := by
  refine shapeCast_apply v h (ix4 b u r s) (ix3 b r s) ?_
  rw [Shape.rowMajor_val_three, Shape.rowMajor_val_four]
  have hu : u.val = 0 := by omega
  show (b.val * 512 + r.val) * 512 + s.val = ((b.val * 1 + u.val) * 512 + r.val) * 512 + s.val
  rw [hu]; omega

/-- A slice of 512 key rows from row o reads (b, s, c) at (b, o + s, c). -/
theorem slice_apply {α : Type} (o : Nat) (x : S4x1024x128.Idx → α) (h : S4x1024x128.Slices ![0, o, 0] S4x512x128)
    (ho : o + 512 ≤ 1024) (b : Fin 4) (s : Fin 512) (c : Fin 128) :
    extractStridedSlice S4x512x128 ![0, o, 0] x h (ix3 b s c) = x (ix3 b ⟨o + s.val, by omega⟩ c) := by
  refine extractStridedSlice_apply _ x h _ _ fun a => ?_
  match a with
  | ⟨0, _⟩ => show b.val = 0 + b.val; omega
  | ⟨1, _⟩ => show o + s.val = o + s.val; rfl
  | ⟨2, _⟩ => show c.val = 0 + c.val; omega

/-- The thresholded product of the query rows' table rows with the slice of key rows from row o, at entry (b, r, s):
    the mask entry decided by the table at the role of query row r and of key o + s. -/
theorem half_apply (x0 : Vec Ideal S4x512 .i32) (x1 : Vec Ideal S128x128 .bf16) (x2 : Vec Ideal S4x1024 .i32)
    (h0 : ∀ i, (x0 i).toNat < 128) (h2 : ∀ i, (x2 i).toNat < 128)
    (o : Nat) (h : S4x1024x128.Slices ![0, o, 0] S4x512x128) (ho : o + 512 ≤ 1024) (b : Fin 4) (r s : Fin 512) :
    Scalar.select (Ideal.cmp .ogt
        (matmul dotD none (k0_pay2 (F := Ideal) x0 x1) (extractStridedSlice S4x512x128 ![0, o, 0] (k0_pay3 (F := Ideal) x2) h)
          (constant (F := Ideal) S4x512x512 .f32 0x00000000#32) (ix3 b r s))
        (Ideal.ofBits .f32 0x3F000000#32)) (Ideal.ofBits .f32 0x00000000#32) (Ideal.ofBits .f32 0xCE6E6B28#32)
      = maskOf (x1 (ix2 ⟨(x0 (ix2 b r)).toNat, h0 _⟩ ⟨(x2 (ix2 b ⟨o + s.val, by omega⟩)).toNat, h2 _⟩)) := by
  rw [tile_entry x0 x1 x2 h0 h2 _ (fun s => ⟨o + s.val, by omega⟩) (fun b s c => slice_apply o _ h ho b s c) b r s]
  rfl

/-- The left half's payload at (b, 0, r, s): decided by the table at the role of query row r and of key s. -/
theorem pay4_apply (x0 : Vec Ideal S4x512 .i32) (x1 : Vec Ideal S128x128 .bf16) (x2 : Vec Ideal S4x1024 .i32)
    (h0 : ∀ i, (x0 i).toNat < 128) (h2 : ∀ i, (x2 i).toNat < 128) (b : Fin 4) (u : Fin 1) (r s : Fin 512) :
    k0_pay4 (F := Ideal) x0 x1 x2 (ix4 b u r s)
      = maskOf (x1 (ix2 ⟨(x0 (ix2 b r)).toNat, h0 _⟩ ⟨(x2 (ix2 b ⟨0 + s.val, by omega⟩)).toNat, h2 _⟩)) := by
  unfold k0_pay4
  refine (cast_apply _ _ b u r s).trans ?_
  exact half_apply x0 x1 x2 h0 h2 0 _ (by omega) b r s

/-- The right half's payload at (b, 0, r, s): decided by the table at the role of query row r and of key 512 + s. -/
theorem pay1_apply (x0 : Vec Ideal S4x512 .i32) (x1 : Vec Ideal S128x128 .bf16) (x2 : Vec Ideal S4x1024 .i32)
    (h0 : ∀ i, (x0 i).toNat < 128) (h2 : ∀ i, (x2 i).toNat < 128) (b : Fin 4) (u : Fin 1) (r s : Fin 512) :
    k0_pay1 (F := Ideal) (k0_pay5 (F := Ideal) x0 x1 x2) (Scalar.ofBits .f32 0x00000000#32) (Scalar.ofBits .f32 0xCE6E6B28#32) (ix4 b u r s)
      = maskOf (x1 (ix2 ⟨(x0 (ix2 b r)).toNat, h0 _⟩ ⟨(x2 (ix2 b ⟨512 + s.val, by omega⟩)).toNat, h2 _⟩)) := by
  unfold k0_pay1 k0_pay5
  refine (cast_apply _ _ b u r s).trans ?_
  exact half_apply x0 x1 x2 h0 h2 512 _ (by omega) b r s

/-- The mask entry as a function of the block index. -/
def blockG (x0 : Vec Ideal S4x512 .i32) (x1 : Vec Ideal S128x128 .bf16) (x2 : Vec Ideal S4x1024 .i32)
    (h0 : ∀ i, (x0 i).toNat < 128) (h2 : ∀ i, (x2 i).toNat < 128) (y : S4x1x512x1024.Idx) : EReal :=
  maskOf (x1 (ix2 ⟨(x0 (ix2 (y 0) (y 2))).toNat, h0 _⟩ ⟨(x2 (ix2 (y 0) (y 3))).toNat, h2 _⟩))

/-- A tile of 512 columns from column o places its entry (b, 0, r, s) at (b, 0, r, o + s) of the block. -/
theorem tile_emb (o : Nat) (ho : o + 512 ≤ 1024)
    (inb : ∀ a, (![0, 0, 0, o] : Fin 4 → Nat) a + S4x1x512x512.size a ≤ S4x1x512x1024.size a)
    (b : Fin 4) (u : Fin 1) (r s : Fin 512) :
    (Rect.unit (s := S4x1x512x1024) ![0, 0, 0, o] S4x1x512x512.size inb).emb (ix4 b u r s)
      = ix4 b u r (⟨o + s.val, by omega⟩ : Fin 1024) := by
  funext a
  apply Fin.ext
  rw [Rect.emb_apply]
  match a with
  | ⟨0, _⟩ => show 0 + 1 * b.val = b.val; omega
  | ⟨1, _⟩ => show 0 + 1 * u.val = u.val; omega
  | ⟨2, _⟩ => show 0 + 1 * r.val = r.val; omega
  | ⟨3, _⟩ => show o + 1 * s.val = o + s.val; omega

/-- The right half's store agrees with the mask function under its rectangle. -/
theorem right_piece (x0 : Vec Ideal S4x512 .i32) (x1 : Vec Ideal S128x128 .bf16) (x2 : Vec Ideal S4x1024 .i32)
    (h0 : ∀ i, (x0 i).toNat < 128) (h2 : ∀ i, (x2 i).toNat < 128) (x : S4x1x512x512.Idx) :
    k0_pay1 (F := Ideal) (k0_pay5 (F := Ideal) x0 x1 x2) (Scalar.ofBits .f32 0x00000000#32) (Scalar.ofBits .f32 0xCE6E6B28#32) x
      = blockG x0 x1 x2 h0 h2 (r0_4.emb x) := by
  obtain ⟨b, u, r, s, rfl⟩ : ∃ (b : Fin 4) (u : Fin 1) (r s : Fin 512), x = ix4 b u r s := ⟨x 0, x 1, x 2, x 3, eq_ix4 x⟩
  refine (pay1_apply x0 x1 x2 h0 h2 b u r s).trans ?_
  rw [show r0_4.emb (ix4 b u r s) = ix4 b u r (⟨512 + s.val, by omega⟩ : Fin 1024) from
    tile_emb 512 (by omega) Facts₀.inb_S4x1x512x1024_S4x1x512x512_0_0_0_512 b u r s]
  rfl

/-- The left half's store agrees with the mask function under its rectangle. -/
theorem left_piece (x0 : Vec Ideal S4x512 .i32) (x1 : Vec Ideal S128x128 .bf16) (x2 : Vec Ideal S4x1024 .i32)
    (h0 : ∀ i, (x0 i).toNat < 128) (h2 : ∀ i, (x2 i).toNat < 128) (x : S4x1x512x512.Idx) :
    k0_pay4 (F := Ideal) x0 x1 x2 x = blockG x0 x1 x2 h0 h2 (r0_3.emb x) := by
  obtain ⟨b, u, r, s, rfl⟩ : ∃ (b : Fin 4) (u : Fin 1) (r s : Fin 512), x = ix4 b u r s := ⟨x 0, x 1, x 2, x 3, eq_ix4 x⟩
  refine (pay4_apply x0 x1 x2 h0 h2 b u r s).trans ?_
  rw [show r0_3.emb (ix4 b u r s) = ix4 b u r (⟨0 + s.val, by omega⟩ : Fin 1024) from
    tile_emb 0 (by omega) Facts₀.inb_S4x1x512x1024_S4x1x512x512_0_0_0_0 b u r s]
  rfl

end Body

/-- What the kernel body leaves in the output block, entry by entry: entry `(b, 0, r, s)` is decided by the padded table
    at the role of query row `r` and of key column `s` of batch `b` (ids below 128, the width of the one-hot). -/
theorem out_block_apply (x0 : Vec Ideal Cert.KernelIdeal.S4x512 .i32) (x1 : Vec Ideal Cert.KernelIdeal.S128x128 .bf16)
    (x2 : Vec Ideal Cert.KernelIdeal.S4x1024 .i32) (h0 : ∀ i, (x0 i).toNat < 128) (h2 : ∀ i, (x2 i).toNat < 128)
    (y : Cert.KernelIdeal.S4x1x512x1024.Idx) :
    Cert.KernelIdeal.Gen.out0_3 (F := Ideal) x0 x1 x2 y
      = maskOf (x1 (ix2 ⟨(x0 (ix2 (y 0) (y 2))).toNat, h0 _⟩ ⟨(x2 (ix2 (y 0) (y 3))).toNat, h2 _⟩)) := by
  unfold out0_3
  rw [View.ld_unit_zero (off := ![0, 0]) (funext fun a => by fin_cases a <;> rfl) _ x0,
    View.ld_unit_zero (off := ![0, 0]) (funext fun a => by fin_cases a <;> rfl) _ x1,
    View.ld_unit_zero (off := ![0, 0]) (funext fun a => by fin_cases a <;> rfl) _ x2]
  refine View.canon_apply_of_pieces (Val := Elt Ideal) (Body.blockG x0 x1 x2 h0 h2) _ ?_ y (cover0_3 _ _ y)
  intro p hp x
  simp only [List.mem_cons, List.not_mem_nil, or_false] at hp
  rcases hp with rfl | rfl
  · exact Body.right_piece x0 x1 x2 h0 h2 x
  · exact Body.left_piece x0 x1 x2 h0 h2 x

end Cert.RoleMask

end
-- ==== Proof.LibScatterSet.lean ====
import Idealize.ShloMosaic.PureOps.ShapeOps

/-! A scatter whose body returns the update (a "set"), read at an index.

    When every update index `j` lands inside the operand, at `g j`, and no two land on one element (`g` injective),
    the result holds `upd j` at `g j` and the operand's element wherever no update lands: the order of the writes does
    not matter, each element being written at most once. -/

namespace Cert.LibScatterSet

open Idealize.ShloMosaic

section Fold

variable {ι β α : Type} [DecidableEq β]

/-- A run of writes leaves alone every position none of them names. -/
theorem foldl_write_off (p : ι → β) (v : ι → α) (l : List ι) (r : β → α) (i : β) (hi : ∀ n ∈ l, p n ≠ i) :
    l.foldl (fun r n => fun i' => if i' = p n then v n else r i') r i = r i := by
  induction l generalizing r with
  | nil => rfl
  | cons a t ih =>
    rw [List.foldl_cons, ih _ (fun n hn => hi n (List.mem_cons_of_mem _ hn))]
    exact if_neg (fun e => hi a List.mem_cons_self e.symm)

/-- A run of writes at pairwise distinct positions leaves at each written position the value written there. -/
theorem foldl_write_at (p : ι → β) (hp : Function.Injective p) (v : ι → α) (l : List ι) (r : β → α) (n : ι) (hn : n ∈ l) :
    l.foldl (fun r n => fun i' => if i' = p n then v n else r i') r (p n) = v n := by
  induction l generalizing r with
  | nil => cases hn
  | cons a t ih =>
    rw [List.foldl_cons]
    by_cases ht : n ∈ t
    · exact ih _ ht
    · have ha : n = a := by
        rcases List.mem_cons.1 hn with h | h
        · exact h
        · exact absurd h ht
      subst ha
      rw [foldl_write_off p v t _ (p n) (fun n' hn' e => ht (hp e ▸ hn'))]
      exact if_pos rfl

end Fold

variable {s si u : Shape} {w : Nat} {α : Type}

/-- The scatter as a run of writes, when every update lands inside the operand. -/
theorem scatter_set_eq_foldl (d : ScatterDims s si u) (x : s.Idx → α) (idx : IVec si w) (upd : u.Idx → α)
    (g : u.Idx → s.Idx) (h : ∀ j, d.resultIdx? j idx = some (g j)) :
    Host.scatter d (fun _ b => b) x idx upd
      = (List.finRange u.numel).foldl
          (fun r n => fun i' => if i' = g (u.rowMajor.symm n) then upd (u.rowMajor.symm n) else r i') x := by
  unfold Host.scatter
  simp only [h]

/-- The element an update lands on holds that update. -/
theorem scatter_set_at (d : ScatterDims s si u) (x : s.Idx → α) (idx : IVec si w) (upd : u.Idx → α)
    (g : u.Idx → s.Idx) (hg : Function.Injective g) (h : ∀ j, d.resultIdx? j idx = some (g j)) (j : u.Idx) :
    Host.scatter d (fun _ b => b) x idx upd (g j) = upd j := by
  rw [scatter_set_eq_foldl d x idx upd g h]
  have := foldl_write_at (fun n => g (u.rowMajor.symm n)) (hg.comp u.rowMajor.symm.injective)
    (fun n => upd (u.rowMajor.symm n)) (List.finRange u.numel) x (u.rowMajor j) (List.mem_finRange _)
  simpa only [Equiv.symm_apply_apply] using this

/-- An element no update lands on holds the operand's. -/
theorem scatter_set_off (d : ScatterDims s si u) (x : s.Idx → α) (idx : IVec si w) (upd : u.Idx → α)
    (g : u.Idx → s.Idx) (h : ∀ j, d.resultIdx? j idx = some (g j)) (i : s.Idx) (hi : ∀ j, g j ≠ i) :
    Host.scatter d (fun _ b => b) x idx upd i = x i := by
  rw [scatter_set_eq_foldl d x idx upd g h]
  exact foldl_write_off (fun n => g (u.rowMajor.symm n)) (fun n => upd (u.rowMajor.symm n)) _ x i (fun n _ => hi _)

end Cert.LibScatterSet
-- ==== Proof.HostArrays.lean ====
import proofs.«415536_j42923903156437_3_alg».proof.Proof.Spec
import proofs.«415536_j42923903156437_3_alg».proof.Proof.Gen.KernelIdeal.Frame
import Idealize.ShloMosaic.Lib.StableHlo.Run
import proofs.«415536_j42923903156437_3_alg».proof.Proof.LibScatterSet

noncomputable section

open Idealize.ShloMosaic Idealize.ShloMosaic.ValueIdx Idealize.ShloMosaic.TcCoe Idealize.SL.Sem

namespace Cert.RoleMask

open Cert.KernelIdeal Cert.KernelIdeal.Gen

variable (m : (ℓ : Loc nD τ sig) → Buf (Elt Ideal) ℓ)

/-- Clipping a 32-bit word below 8 to the interval from 0 to 7, read signed, gives the word back. -/
private theorem clip_small (w : BitVec 32) (h : w.toNat < 8) : IntOp.minsi 7#32 (IntOp.maxsi 0#32 w) = w := by
  have hti : w.toInt = w.toNat := BitVec.toInt_eq_toNat_of_lt (by omega)
  have h0 : (0#32 : BitVec 32).toInt = 0 := by decide
  have h7 : (7#32 : BitVec 32).toInt = 7 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h7, decide_eq_true_eq]; omega

/-- A concatenation of pieces that all hold one value everywhere holds it everywhere. -/
private theorem concatenate_const {α : Type} (t : Shape) (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The 8 × 8 window at the top-left corner of the 128 × 128 table. -/
private def corner (j : S8x8.Idx) : S128x128.Idx :=
  ix2 ⟨(j 0).val, by have := idx2_lt0 j; omega⟩ ⟨(j 1).val, by have := idx2_lt1 j; omega⟩

/-- Distinct elements of the window are distinct elements of the table. -/
private theorem corner_injective : Function.Injective corner := by
  intro j j' h
  have h0 := congrArg (fun i : S128x128.Idx => (i 0).val) h
  have h1 := congrArg (fun i : S128x128.Idx => (i 1).val) h
  funext a
  match a with
  | ⟨0, _⟩ => exact Fin.ext h0
  | ⟨1, _⟩ => exact Fin.ext h1

/-- With the start index zero on both axes, update element `j` lands at `j` in the corner: the start is `0` on each
    axis, the window coordinate on an axis is `j`'s own, and `j`'s coordinates are below 8, so inside the table. -/
private theorem resultIdx_corner (idx : IVec S2 32) (hidx : ∀ k, idx k = 0#32) (j : S8x8.Idx) :
    scatter_S128x128_S2_S8x8_01_n_01_0.resultIdx? j idx = some (corner j) := by
  have hs : ∀ a, scatter_S128x128_S2_S8x8_01_n_01_0.start j idx a = 0 := by
    intro a
    unfold ScatterDims.start
    split
    · rw [hidx]; rfl
    · rfl
  have hw : ∀ a : Fin 2, scatter_S128x128_S2_S8x8_01_n_01_0.window j a = (j a).val := by
    intro a
    match a with
    | ⟨0, _⟩ => rfl
    | ⟨1, _⟩ => rfl
  unfold ScatterDims.resultIdx?
  rw [dif_pos]
  · congr 1
    funext a
    apply Fin.ext
    simp only [hs, hw, zero_add, Int.toNat_natCast]
    match a with
    | ⟨0, _⟩ => rfl
    | ⟨1, _⟩ => rfl
  · intro a
    rw [hs, hw]
    have hlt : (j a).val < S128x128.size a := by
      match a with
      | ⟨0, _⟩ => exact lt_trans (idx2_lt0 j) (show (8 : ℕ) < 128 by decide)
      | ⟨1, _⟩ => exact lt_trans (idx2_lt1 j) (show (8 : ℕ) < 128 by decide)
    omega

/-- The query ids the region finds are the argument's: clipping to `[0, 7]` changes no id in range. -/
theorem V_main_v0_of_inRange (c : Dev nD) (h : InRange (m ((c : Thread nD τ).loc main_arg0))) :
    (V m c main_v0 : S4x4096.Idx → BitVec 32) = m ((c : Thread nD τ).loc main_arg0) := by
  have e : (V m c main_v0 : S4x4096.Idx → BitVec 32)
      = minsi (broadcastInDim S4x4096 ![] bcast_S_S4x4096 (constantI S_ 32 7#32))
          (maxsi (broadcastInDim S4x4096 ![] bcast_S_S4x4096 (constantI S_ 32 0#32))
            (m ((c : Thread nD τ).loc main_arg0) : S4x4096.Idx → BitVec 32)) := by
    dsimp only [V]
    simp only [hostOps0, hostOps0_1, hostOps0_2, hostOps0_3, hostOps0_4, List.flatten_cons, List.flatten_nil,
      List.append_nil, List.cons_append, List.nil_append]
    after_results; rfl
  rw [e]
  funext i
  simp only [minsi, maxsi, broadcastInDim, constantI]
  exact clip_small _ (h i)

/-- The key ids likewise. -/
theorem V_main_v1_of_inRange (c : Dev nD) (h : InRange (m ((c : Thread nD τ).loc main_arg1))) :
    (V m c main_v1 : S4x4096.Idx → BitVec 32) = m ((c : Thread nD τ).loc main_arg1) := by
  have e : (V m c main_v1 : S4x4096.Idx → BitVec 32)
      = minsi (broadcastInDim S4x4096 ![] bcast_S_S4x4096 (constantI S_ 32 7#32))
          (maxsi (broadcastInDim S4x4096 ![] bcast_S_S4x4096 (constantI S_ 32 0#32))
            (m ((c : Thread nD τ).loc main_arg1) : S4x4096.Idx → BitVec 32)) := by
    dsimp only [V]
    simp only [hostOps0, hostOps0_1, hostOps0_2, hostOps0_3, hostOps0_4, List.flatten_cons, List.flatten_nil,
      List.append_nil, List.cons_append, List.nil_append]
    after_results; rfl
  rw [e]
  funext i
  simp only [minsi, maxsi, broadcastInDim, constantI]
  exact clip_small _ (h i)

/-- The padded `128 × 128` table the region finds holds, in its top-left `8 × 8` corner, the indicator (0 or 1) of
    `table[a, b] > 1/2`. -/
theorem V_main_v9_apply (c : Dev nD) (a b : Fin 8) :
    (V m c main_v9 : S128x128.Idx → EReal) (ix2 ⟨a.val, by omega⟩ ⟨b.val, by omega⟩)
      = (((Ideal.cmp .ogt ((m ((c : Thread nD τ).loc main_arg2) : S8x8.Idx → EReal) (ix2 a b))
            (Ideal.ofBits .f32 0x3F000000#32)).toNat : ℝ) : EReal) := by
  dsimp only [V]
  simp only [hostOps0, hostOps0_1, hostOps0_2, hostOps0_3, hostOps0_4, List.flatten_cons, List.flatten_nil,
    List.append_nil, List.cons_append, List.nil_append]
  after_results
  have hidx : ∀ k, (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 : IVec S2 32) k = 0#32 := by
    intro k
    refine concatenate_const _ _ _ _ _ (fun p hp i => ?_) k
    simp only [List.mem_cons, List.not_mem_nil, or_false, or_self] at hp
    subst hp
    rfl
  refine (Cert.LibScatterSet.scatter_set_at scatter_S128x128_S2_S8x8_01_n_01_0 _ _ _ corner corner_injective
    (fun j => resultIdx_corner _ hidx j) (ix2 a b)).trans ?_
  rfl

end Cert.RoleMask

end
-- ==== Proof.Blocks.lean ====
import proofs.«415536_j42923903156437_3_alg».proof.Proof.BodyValue
import proofs.«415536_j42923903156437_3_alg».proof.Proof.HostArrays
import proofs.«415536_j42923903156437_3_alg».proof.Proof.Gen.KernelIdeal.Value

noncomputable section

open Idealize.ShloMosaic Idealize.ShloMosaic.ValueIdx Idealize.ShloMosaic.TcCoe Idealize.SL.Sem

namespace Cert.RoleMask

open Cert.KernelIdeal Cert.KernelIdeal.Gen
open Idealize.ShloMosaic.Pipeline (Dat)

variable (m : (ℓ : Loc nD τ sig) → Buf (Elt Ideal) ℓ) (ρ : Dev nD → PrngReg)

/-! ## From blocks to the array

    The grid is `8 × 4`: point `(i, j)` reads query ids `[512 i, 512 (i+1))`, key ids `[1024 j, 1024 (j+1))` and the whole
    padded table, and writes block `(i, j)` of the mask. Each entry of a block depends on one query id, one key id and
    one table entry, so the blocks are the restrictions of one function of the arrays. -/

/-- The windows' block indices at a point, decided over the 32 points: the id windows move with the output block
    along its last two axes, the table window stays, and the output's block indices stay in range. -/
theorem idx_facts : ∀ t : Fin cfg0.N,
    win0_0.index t (0 : Fin 2) = 0 ∧ win0_0.index t (1 : Fin 2) = win0_3.index t (2 : Fin 4)
    ∧ win0_1.index t (0 : Fin 2) = 0 ∧ win0_1.index t (1 : Fin 2) = 0
    ∧ win0_2.index t (0 : Fin 2) = 0 ∧ win0_2.index t (1 : Fin 2) = win0_3.index t (3 : Fin 4)
    ∧ win0_3.index t (0 : Fin 4) = 0 ∧ win0_3.index t (1 : Fin 4) = 0
    ∧ win0_3.index t (2 : Fin 4) ≤ 7 ∧ win0_3.index t (3 : Fin 4) ≤ 3 :=
  (by decide +kernel : ∀ t : Fin grid0.N, _)

/-- Every block of the mask is some point's. -/
theorem idx_onto : ∀ (q2 : Fin 8) (q3 : Fin 4), ∃ t : Fin cfg0.N, win0_3.index t = ![0, 0, q2.val, q3.val] :=
  (by decide +kernel : ∀ (q2 : Fin 8) (q3 : Fin 4), ∃ t : Fin grid0.N, win0_3.index t = ![0, 0, q2.val, q3.val])

/-- The query ids, the padded table and the key ids a point's body loads, at their literal types. -/
abbrev qblk (c : Dev nD) (t : Fin cfg0.N) : Vec Ideal S4x512 .i32 := iblk m c 0 t
abbrev tblk (c : Dev nD) (t : Fin cfg0.N) : Vec Ideal S128x128 .bf16 := iblk m c 1 t
abbrev kblk (c : Dev nD) (t : Fin cfg0.N) : Vec Ideal S4x1024 .i32 := iblk m c 2 t

/-- A loaded query id is the argument's at the block's place in the array. -/
theorem qblk_apply (c : Dev nD) (hq : InRange (m ((c : Thread nD τ).loc main_arg0))) (t : Fin cfg0.N) (b : Fin 4) (r : Fin 512) :
    qblk m c t (ix2 b r)
      = (m ((c : Thread nD τ).loc main_arg0) : S4x4096.Idx → BitVec 32) (ix2 b ⟨win0_3.index t (2 : Fin 4) * 512 + r.val, by
          have := (idx_facts t).2.2.2.2.2.2.2.2.1; omega⟩) := by
  obtain ⟨e0, e1, -⟩ := idx_facts t
  show (V m c main_v0 : S4x4096.Idx → BitVec 32) (((cfg0.win 0).blk t).view.emb (ix2 b r)) = _
  rw [V_main_v0_of_inRange m c hq]
  congr 1
  funext a; apply Fin.ext
  match a with
  | ⟨0, _⟩ => show win0_0.index t (0 : Fin 2) * 4 + 1 * b.val = b.val; omega
  | ⟨1, _⟩ => show win0_0.index t (1 : Fin 2) * 512 + 1 * r.val = win0_3.index t (2 : Fin 4) * 512 + r.val; omega

/-- A loaded key id likewise. -/
theorem kblk_apply (c : Dev nD) (hk : InRange (m ((c : Thread nD τ).loc main_arg1))) (t : Fin cfg0.N) (b : Fin 4) (s : Fin 1024) :
    kblk m c t (ix2 b s)
      = (m ((c : Thread nD τ).loc main_arg1) : S4x4096.Idx → BitVec 32) (ix2 b ⟨win0_3.index t (3 : Fin 4) * 1024 + s.val, by
          have := (idx_facts t).2.2.2.2.2.2.2.2.2; omega⟩) := by
  obtain ⟨-, -, -, -, e4, e5, -⟩ := idx_facts t
  show (V m c main_v1 : S4x4096.Idx → BitVec 32) (((cfg0.win 2).blk t).view.emb (ix2 b s)) = _
  rw [V_main_v1_of_inRange m c hk]
  congr 1
  funext a; apply Fin.ext
  match a with
  | ⟨0, _⟩ => show win0_2.index t (0 : Fin 2) * 4 + 1 * b.val = b.val; omega
  | ⟨1, _⟩ => show win0_2.index t (1 : Fin 2) * 1024 + 1 * s.val = win0_3.index t (3 : Fin 4) * 1024 + s.val; omega

/-- The loaded table is the whole padded table. -/
theorem tblk_apply (c : Dev nD) (t : Fin cfg0.N) (a b : Fin 128) :
    tblk m c t (ix2 a b) = (V m c main_v9 : S128x128.Idx → EReal) (ix2 a b) := by
  obtain ⟨-, -, e2, e3, -⟩ := idx_facts t
  show (V m c main_v9 : S128x128.Idx → EReal) (((cfg0.win 1).blk t).view.emb (ix2 a b)) = _
  congr 1
  funext d; apply Fin.ext
  match d with
  | ⟨0, _⟩ => show win0_1.index t (0 : Fin 2) * 128 + 1 * a.val = a.val; omega
  | ⟨1, _⟩ => show win0_1.index t (1 : Fin 2) * 128 + 1 * b.val = b.val; omega

/-- Every id a point loads is a coordinate of the `8 × 8` table. -/
theorem qblk_lt (c : Dev nD) (hq : InRange (m ((c : Thread nD τ).loc main_arg0))) (t : Fin cfg0.N) (i : S4x512.Idx) :
    (qblk m c t i).toNat < 8 := by
  obtain ⟨b, r, rfl⟩ : ∃ (b : Fin 4) (r : Fin 512), i = ix2 b r := ⟨i 0, i 1, eq_ix2 i⟩
  rw [qblk_apply m c hq t b r]; exact hq _

theorem kblk_lt (c : Dev nD) (hk : InRange (m ((c : Thread nD τ).loc main_arg1))) (t : Fin cfg0.N) (i : S4x1024.Idx) :
    (kblk m c t i).toNat < 8 := by
  obtain ⟨b, s, rfl⟩ : ∃ (b : Fin 4) (s : Fin 1024), i = ix2 b s := ⟨i 0, i 1, eq_ix2 i⟩
  rw [kblk_apply m c hk t b s]; exact hk _

/-- An entry of the block a point's body leaves is the role mask's entry at the block's place in the array: it is
    decided by the padded table at the loaded ids, the loaded ids are the arguments' there, the padded table's corner
    holds the thresholded table, and thresholding the indicator again changes nothing. -/
theorem block_entry (c : Dev nD) (hq : InRange (m ((c : Thread nD τ).loc main_arg0)))
    (hk : InRange (m ((c : Thread nD τ).loc main_arg1))) (t : Fin cfg0.N) (j : S4x1x512x1024.Idx) :
    out0_3 (F := Ideal) (qblk m c t) (tblk m c t) (kblk m c t) j
      = G (m ((c : Thread nD τ).loc main_arg0)) (m ((c : Thread nD τ).loc main_arg1)) (m ((c : Thread nD τ).loc main_arg2))
          (ix4 (j 0) (j 1)
            ⟨win0_3.index t (2 : Fin 4) * 512 + (j 2).val, by
              have := (idx_facts t).2.2.2.2.2.2.2.2.1; have hj : (j 2).val < 512 := (j 2).isLt; omega⟩
            ⟨win0_3.index t (3 : Fin 4) * 1024 + (j 3).val, by
              have := (idx_facts t).2.2.2.2.2.2.2.2.2; have hj : (j 3).val < 1024 := (j 3).isLt; omega⟩) := by
  have h0 : ∀ i, (qblk m c t i).toNat < 128 := fun i => by have := qblk_lt m c hq t i; omega
  have h2 : ∀ i, (kblk m c t i).toNat < 128 := fun i => by have := kblk_lt m c hk t i; omega
  refine (out_block_apply (qblk m c t) (tblk m c t) (kblk m c t) h0 h2 j).trans ?_
  rw [tblk_apply m c t]
  have hv := V_main_v9_apply m c ⟨(qblk m c t (ix2 (j 0) (j 2))).toNat, qblk_lt m c hq t _⟩
    ⟨(kblk m c t (ix2 (j 0) (j 3))).toNat, kblk_lt m c hk t _⟩
  refine (congrArg maskOf hv).trans ?_
  rw [maskOf_indicator]
  unfold G
  congr 2
  have hA : ∀ (a a' b b' : Fin 8), a = a' → b = b' → (ix2 a b : S8x8.Idx) = ix2 a' b' := by
    intro a a' b b' h h'; rw [h, h']
  refine hA _ _ _ _ (Fin.ext ?_) (Fin.ext ?_)
  · rw [roleIx_val_of_lt (hq _)]
    exact congrArg BitVec.toNat (qblk_apply m c hq t (j 0) (j 2))
  · rw [roleIx_val_of_lt (hk _)]
    exact congrArg BitVec.toNat (kblk_apply m c hk t (j 0) (j 3))

/-- WHAT POINT `t` WRITES BACK is block `t` of the role mask of the argument arrays. -/
theorem flushed_eq (c : Dev nD) (hq : InRange (m ((c : Thread nD τ).loc main_arg0)))
    (hk : InRange (m ((c : Thread nD τ).loc main_arg1))) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  obtain ⟨-, -, -, -, -, -, e6, e7, -⟩ := idx_facts t
  funext j
  show out0_3 (F := Ideal) (qblk m c t) (tblk m c t) (kblk m c t) j = G _ _ _ (((cfg0.win 3).blk t).view.emb j)
  refine (block_entry m c hq hk t j).trans ?_
  congr 1
  funext a; apply Fin.ext
  match a with
  | ⟨0, _⟩ => show (j 0).val = win0_3.index t (0 : Fin 4) * 4 + 1 * (j 0).val; omega
  | ⟨1, _⟩ => show (j 1).val = win0_3.index t (1 : Fin 4) * 1 + 1 * (j 1).val; omega
  | ⟨2, _⟩ => show win0_3.index t (2 : Fin 4) * 512 + (j 2).val = win0_3.index t (2 : Fin 4) * 512 + 1 * (j 2).val; omega
  | ⟨3, _⟩ => show win0_3.index t (3 : Fin 4) * 1024 + (j 3).val = win0_3.index t (3 : Fin 4) * 1024 + 1 * (j 3).val; omega

/-- An index of the mask is in point `t`'s block iff each coordinate is in the block's range on its axis. -/
theorem mem_blk (t : Fin cfg0.N) (i : S4x1x4096x4096.Idx) :
    i ∈ ((cfg0.win 3).blk t).view.set ↔ ∀ a : Fin 4, win0_3.index t a * S4x1x512x1024.size a ≤ (i a).val
      ∧ (i a).val < win0_3.index t a * S4x1x512x1024.size a + S4x1x512x1024.size a := by
  show i ∈ ((View.whole main_v10).slice (win0_3.rect t)).set ↔ _
  rw [View.set_slice_whole, Rect.mem_set_unit]
  exact Iff.rfl

/-- Every entry of the mask lies in the block of the point `(i₂ / 512, i₃ / 1024)`. -/
theorem cover (i : S4x1x4096x4096.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 4096 := (i 2).isLt
  have hi3 : (i 3).val < 4096 := (i 3).isLt
  obtain ⟨t, ht⟩ := idx_onto ⟨(i 2).val / 512, by omega⟩ ⟨(i 3).val / 1024, by omega⟩
  have q0 : win0_3.index t (0 : Fin 4) = 0 := congrFun ht 0
  have q1 : win0_3.index t (1 : Fin 4) = 0 := congrFun ht 1
  have q2 : win0_3.index t (2 : Fin 4) = (i 2).val / 512 := congrFun ht 2
  have q3 : win0_3.index t (3 : Fin 4) = (i 3).val / 1024 := congrFun ht 3
  refine ⟨t, flush0_3 t, ?_⟩
  rw [mem_blk]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 1024 ≤ (i 3).val ∧ (i 3).val < win0_3.index t (3 : Fin 4) * 1024 + 1024; omega

/-- THE ARRAY after the run is the role mask of the argument arrays. -/
theorem final (c : Dev nD) (hq : InRange (m ((c : Thread nD τ).loc main_arg0)))
    (hk : InRange (m ((c : Thread nD τ).loc main_arg1))) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c hq hk t) cover

/-- The kernel's run re-posted: the result array is the role mask of the arguments, the arguments unchanged. -/
theorem run (hq : ∀ c : Dev nD, InRange (m ((c : Thread nD τ).loc main_arg0)))
    (hk : ∀ c : Dev nD, InRange (m ((c : Thread nD τ).loc main_arg1))) :
    θ_run defs (onTc (τ := τ) (main (F := Ideal))) ⟨m, fun _ => 0, ρ⟩ fun r => ∀ c : Dev nD,
      r.2.mem ((c : Thread nD τ).loc main_v10)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hq c) (hk c)), (h c).2⟩)
    (Cert.KernelIdeal.Value.run_blocks m ρ)

end Cert.RoleMask

end
-- ==== Proof.lean ====
/- The role mask `mask[b, 0, i, j] = (table[roles_q[b, i], roles_k[b, j]] > 1/2 ? 0 : -1e9)` over `[4, 1, 4096, 4096]`.

   The kernel clips both id arrays to `[0, 7]`, thresholds the `8 × 8` table to 0/1 and pads it to `128 × 128`, and on an
   `8 × 4` grid gathers by two one-hot matrix products — `onehot(q) · T` picks the table's row of each query's role, and
   that row against `onehot(k)` picks the entry at each key's role — and thresholds the result again. The reference
   indexes the table directly (negative ids wrapped, then clamped) and thresholds once. Over the extended reals a sum
   against a one-hot is the selected term, and an indicator exceeds one half exactly when its condition holds, so for
   role ids in `[0, 8)` — the precondition's evident domain: the ids are coordinates of the table — both programs
   compute `Cert.RoleMask.G` (Proof/Spec.lean). The table's entries may be any extended reals: nothing here uses their
   finiteness.

   Proof/PreRange.lean reads the id ranges off the precondition; Proof/HostArrays.lean what the host operations before
   the kernel leave (the clipped ids are the ids; the padded table's corner is the thresholded table, by
   Proof/LibScatterSet.lean); Proof/PayRows.lean and Proof/BodyValue.lean the kernel body's block entry by entry;
   Proof/Blocks.lean the array from its blocks; Proof/RefValue.lean the reference's gather. -/
import proofs.«415536_j42923903156437_3_alg».proof.Defs
import proofs.«415536_j42923903156437_3_alg».proof.Proof.Gen.Kernel
import proofs.«415536_j42923903156437_3_alg».proof.Proof.Gen.Kernel.Skeleton
import proofs.«415536_j42923903156437_3_alg».proof.Proof.Gen.Kernel.Launch
import proofs.«415536_j42923903156437_3_alg».proof.Proof.Gen.Kernel.Points
import proofs.«415536_j42923903156437_3_alg».proof.Proof.Gen.Kernel.Frame
import proofs.«415536_j42923903156437_3_alg».proof.Proof.Gen.KernelIdeal
import proofs.«415536_j42923903156437_3_alg».proof.Proof.Gen.KernelIdeal.Skeleton
import proofs.«415536_j42923903156437_3_alg».proof.Proof.Gen.KernelIdeal.Launch
import proofs.«415536_j42923903156437_3_alg».proof.Proof.Gen.KernelIdeal.Points
import proofs.«415536_j42923903156437_3_alg».proof.Proof.Gen.KernelIdeal.Frame
import proofs.«415536_j42923903156437_3_alg».proof.Proof.Gen.ReferenceIdeal
import proofs.«415536_j42923903156437_3_alg».proof.Proof.Gen.Pre_finite_inputs
import proofs.«415536_j42923903156437_3_alg».proof.Proof.Gen.KernelIdeal.Value
import proofs.«415536_j42923903156437_3_alg».proof.Proof.Gen.ReferenceIdeal.Run
import proofs.«415536_j42923903156437_3_alg».proof.Proof.Gen.ReferenceIdeal.Read
import proofs.«415536_j42923903156437_3_alg».proof.Proof.PreRange
import proofs.«415536_j42923903156437_3_alg».proof.Proof.RefValue
import proofs.«415536_j42923903156437_3_alg».proof.Proof.Blocks
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the role mask of the arguments: the kernel by its blocks, the reference by its gather, for ids
    the precondition puts in `[0, 8)`. -/
theorem algebraic : Cert.algebraic_KernelIdeal_ReferenceIdeal := by
  intro m ρ m' ρ' hpre hagree
  have hr := fun c => Cert.RoleMask.inRange_of_pre _ _ _ (hpre c)
  refine ⟨_, Cert.RoleMask.run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact Cert.RoleMask.ref_eq_G _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
